-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x32 : Shape := ⟨2, ![256, 32]⟩
abbrev S32 : Shape := ⟨1, ![32]⟩
abbrev S50000x1 : Shape := ⟨2, ![50000, 1]⟩
abbrev S1600000 : Shape := ⟨1, ![1600000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S50000x1 : S_.BroadcastsInDim S50000x1 (![] : Fin 0 → Fin S50000x1.rank)
  reducesTo_S50000x1_S_d0_1 : S50000x1.ReducesTo [0, 1] S_

variable [Facts]

def fn_part1 {F : FTy → Type} [FloatOps F] (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  main_v18

def fn {F : FTy → Type} [FloatOps F] (main_arg0 : FVec F S50000x256 .f32) (main_arg1 : FVec F S256x32 .f32) (main_arg2 : FVec F S32 .f32) (main_arg3 : FVec F S50000x1 .f32) (main_arg4 : IVec S1600000 32) (main_arg5 : IVec S1600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_v13 main_v16
-- ==== Kernel.lean ====
abbrev S50000x256 : Shape := ⟨2, ![50000, 256]⟩
abbrev S256x32 : Shape := ⟨2, ![256, 32]⟩
abbrev S32 : Shape := ⟨1, ![32]⟩
abbrev S50000x1 : Shape := ⟨2, ![50000, 1]⟩
abbrev S1600000 : Shape := ⟨1, ![1600000]⟩
abbrev S50000x32 : Shape := ⟨2, ![50000, 32]⟩
abbrev S5000x256 : Shape := ⟨2, ![5000, 256]⟩
abbrev S5000x32 : Shape := ⟨2, ![5000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S5000x1 : Shape := ⟨2, ![5000, 1]⟩

abbrev nBuf : Space → Nat
  | .hbm => 33
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S256x32, .f32⟩
  | .hbm, ⟨2, _⟩ => ⟨S32, .f32⟩
  | .hbm, ⟨3, _⟩ => ⟨S50000x1, .f32⟩
  | .hbm, ⟨4, _⟩ => ⟨S1600000, .i32⟩
  | .hbm, ⟨5, _⟩ => ⟨S1600000, .i32⟩
  | .hbm, ⟨6, _⟩ => ⟨S50000x32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .f32⟩
  | .hbm, ⟨25, _⟩ => ⟨S1600000x32, .f32⟩
  | .hbm, ⟨26, _⟩ => ⟨S1600000x32, .f32⟩
  | .hbm, ⟨27, _⟩ => ⟨S_, .f32⟩
  | .hbm, ⟨28, _⟩ => ⟨S50000x32, .f32⟩
  | .hbm, ⟨29, _⟩ => ⟨S1600000x1, .i32⟩
  | .hbm, ⟨30, _⟩ => ⟨S50000x32, .f32⟩
  | .hbm, ⟨31, _⟩ => ⟨S1x32, .f32⟩
  | .hbm, ⟨32, _⟩ => ⟨S50000x32, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x1, .f32⟩
  | .local _ .vmem, ⟨8, _⟩ => ⟨S5000x1, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  dot_S5000x256_S256x32_S5000x32_1_0_0_1_n_n_wf : DotDims.WF S5000x256 S256x32 S5000x32 [1] [0] [0] [1] [] []
  gather_S50000x32_S1600000x1_S1600000x32_1_0_n_n_0_1_132_wf : GatherDims.WF S50000x32 S1600000x1 S1600000x32 [1] [0] [] [0] [] 1 ![1, 32]
  gather_S50000x1_S1600000x1_S1600000x1_1_0_n_n_0_1_11_wf : GatherDims.WF S50000x1 S1600000x1 S1600000x1 [1] [0] [] [0] [] 1 ![1, 1]
  scatter_S50000x32_S1600000x1_S1600000x32_1_0_0_1_wf : ScatterDims.WF S50000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S50000x32.size a
  hwx0_2 : ∀ i : grid0.Coords, EltTy.bits .f32 = 32 ∨ (Rect.block (s := S50000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x32 : Shape := ⟨2, ![256, 32]⟩
abbrev S32 : Shape := ⟨1, ![32]⟩
abbrev S50000x1 : Shape := ⟨2, ![50000, 1]⟩
abbrev S1600000 : Shape := ⟨1, ![1600000]⟩
abbrev S50000x32 : Shape := ⟨2, ![50000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩

abbrev nBuf : Space → Nat
  | .hbm => 39
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x32, .f32⟩
  | .hbm, ⟨2, _⟩ => ⟨S32, .f32⟩
  | .hbm, ⟨3, _⟩ => ⟨S50000x1, .f32⟩
  | .hbm, ⟨4, _⟩ => ⟨S1600000, .i32⟩
  | .hbm, ⟨5, _⟩ => ⟨S1600000, .i32⟩
  | .hbm, ⟨6, _⟩ => ⟨S50000x32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .f32⟩
  | .hbm, ⟨25, _⟩ => ⟨S1600000x32, .f32⟩
  | .hbm, ⟨26, _⟩ => ⟨S1600000x32, .f32⟩
  | .hbm, ⟨27, _⟩ => ⟨S_, .f32⟩
  | .hbm, ⟨28, _⟩ => ⟨S50000x32, .f32⟩
  | .hbm, ⟨29, _⟩ => ⟨S1600000x1, .i32⟩
  | .hbm, ⟨30, _⟩ => ⟨S50000x32, .f32⟩
  | .hbm, ⟨31, _⟩ => ⟨S50000x32, .f32⟩
  | .hbm, ⟨32, _⟩ => ⟨S50000x32, .f32⟩
  | .hbm, ⟨33, _⟩ => ⟨S1x32, .f32⟩
  | .hbm, ⟨34, _⟩ => ⟨S50000x32, .f32⟩
  | .hbm, ⟨35, _⟩ => ⟨S50000x32, .f32⟩
  | .hbm, ⟨36, _⟩ => ⟨S_, .f32⟩
  | .hbm, ⟨37, _⟩ => ⟨S50000x32, .f32⟩
  | .hbm, ⟨38, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x256_S256x32_S50000x32_1_0_0_1_n_n_wf : DotDims.WF S50000x256 S256x32 S50000x32 [1] [0] [0] [1] [] []
  gather_S50000x32_S1600000x1_S1600000x32_1_0_n_n_0_1_132_wf : GatherDims.WF S50000x32 S1600000x1 S1600000x32 [1] [0] [] [0] [] 1 ![1, 32]
  gather_S50000x1_S1600000x1_S1600000x1_1_0_n_n_0_1_11_wf : GatherDims.WF S50000x1 S1600000x1 S1600000x1 [1] [0] [] [0] [] 1 ![1, 1]
  scatter_S50000x32_S1600000x1_S1600000x32_1_0_0_1_wf : ScatterDims.WF S50000x32 S1600000x1 S1600000x32 [1] [0] [0] 1

variable [Facts₀]

def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Project.lean ====
/-
  The dense projection, the first kernel region.

  Each grid point t of ten loads rows 5000·t … 5000·t+4999 of h (a 5000×256 block) and the whole 256×32 weight,
  narrows both to bf16 — which changes nothing over the extended reals —, multiplies them into a zero accumulator
  and stores the 5000×32 product over its output block. A product into a zero accumulator is the textbook sum
  ∑ₖ lhs(p, k)·rhs(k, q), so whatever the region finds in h and in the weight, it leaves in its result array, at
  entry (r, j), the sum ∑ₖ h(r, k)·w(k, j): the ten blocks are the restrictions of that one function to consecutive
  row ranges, and together they cover all 50000 rows.
-/
import proofs.«181072_j10969346474530_1_alg».proof.Proof.Gen.KernelIdeal.Frame
import Idealize.ShloMosaic.Lib.Pipeline.Value
import Idealize.ShloMosaic.Lib.ValueIdx
import proofs.«181072_j10969346474530_1_alg».proof.Proof.LibPlainDot
set_option maxRecDepth 16384

noncomputable section

open scoped BigOperators

namespace Cert.KernelIdeal.Project

open Cert.KernelIdeal Cert.KernelIdeal.Gen Idealize.ShloMosaic Idealize.ShloMosaic.TcCoe Idealize.SL.Sem
open Idealize.ShloMosaic.ValueIdx
open Idealize.ShloMosaic.Pipeline (Dat)

/-- A whole-block access starts at the origin. -/
theorem origin2 : (![0, 0] : Fin 2 → Nat) = fun _ => 0 := funext fun a => by fin_cases a <;> rfl

/-- The product of a 50000×256 array and a 256×32 array as one function: entry (r, j) is ∑ₖ h(r, k)·w(k, j). -/
def rowsTimes (h : S50000x256.Idx → EReal) (w : S256x32.Idx → EReal) : S50000x32.Idx → EReal :=
  fun i => ∑ k : Fin 256, h (ix2 (i 0) k) * w (ix2 k (i 1))

/-! ## The body's arithmetic at an entry of the block -/

/-- The kernel's contraction is the plain one: the left operand's columns against the right operand's rows. -/
theorem plain : PlainDot.IsPlain dot_S5000x256_S256x32_S5000x32_1_0_0_1_n_n := ⟨rfl, rfl, rfl, rfl, rfl, rfl⟩

/-- The stored value at entry (p, q) of the block: ∑ₖ x0(p, k)·x1(k, q), the narrowing to bf16 being the identity. -/
theorem stored_apply (x0 : Vec Ideal S5000x256 .f32) (x1 : Vec Ideal S256x32 .f32) (p : Fin 5000) (q : Fin 32) :
    k0_pay1 (F := Ideal) x0 x1 (ix2 p q) = ∑ k : Fin 256, x0 (ix2 p k) * x1 (ix2 k q) := by
  unfold k0_pay1
  exact PlainDot.matmul_zero_apply plain none (truncf .bf16 x0 bitsLt_bf16_f32) (truncf .bf16 x1 bitsLt_bf16_f32) p q

/-- The same at an index of the block not yet split into coordinates. -/
theorem stored_at (x0 : Vec Ideal S5000x256 .f32) (x1 : Vec Ideal S256x32 .f32) (j : S5000x32.Idx) :
    k0_pay1 (F := Ideal) x0 x1 j = ∑ k : Fin 256, x0 (ix2 (j 0) k) * x1 (ix2 k (j 1)) := by
  obtain ⟨p, q, rfl⟩ : ∃ (p : Fin 5000) (q : Fin 32), j = ix2 p q := ⟨j 0, j 1, eq_ix2 j⟩
  exact stored_apply x0 x1 p q

/-! ## From the ten blocks to the array -/

variable (V : (c : Dev nD) → (b : Ref sig .tc) → Buf (Elt Ideal) ((c : Thread nD τ).loc b))

/-- The two arrays the region reads, as it finds them, each at its literal type. -/
abbrev hArr (c : Dev nD) : S50000x256.Idx → EReal := V c main_arg0
abbrev wArr (c : Dev nD) : S256x32.Idx → EReal := V c main_arg1

/-- The printed index maps over the ten grid points: h and the result move together, one block of rows per point and a
    single block of columns; the weight is always its one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them: row p of the block
    is row 5000·t + p of h against the whole weight. -/
theorem flushed_eq (c : Dev nD) (t : Fin cfg0.N) :
    (dat0 V c).flushed 2 t = ((cfg0.win 2).blk t).view.read (Elt Ideal) (rowsTimes (hArr V c) (wArr V c)) := by
  show (cfg0.win 2).cut (grid0.coords t) ((dat0 V c).after 2 t) = _
  rw [after0_2]
  unfold out0_2
  rw [View.canon_unit_zero origin2]
  simp only [View.ld_unit_zero (S := S5000x256) origin2, View.ld_unit_zero (S := S256x32) origin2]
  obtain ⟨e00, e01, e10, e11, e20, e21⟩ := block_index t
  funext j
  refine (stored_at (iblk0 V c 0 t) (iblk0 V c 1 t) j).trans ?_
  show ∑ k : Fin 256, hArr V c (((cfg0.win 0).blk t).view.emb (ix2 (j 0) k)) * wArr V c (((cfg0.win 1).blk t).view.emb (ix2 k (j 1)))
      = ∑ k : Fin 256, hArr V c (ix2 ((((cfg0.win 2).blk t).view.emb j) 0) k) * wArr V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 32 + 1 * (j 1).val = win0_2.index t (1 : Fin 2) * 32 + 1 * (j 1).val; omega
  rw [h0, h1]
  rfl

/-- An index of the result array lies in point t's block iff each coordinate lies in the block's range on its axis. -/
theorem mem_block (t : Fin cfg0.N) (i : S50000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v0).slice (win0_2.rect t)).set ↔ _
  rw [View.set_slice_whole, Rect.mem_set_unit]
  exact Iff.rfl

/-- Every entry (r, j) of the result array is written: by the point r / 5000. -/
theorem covered (i : S50000x32.Idx) :
    ∃ t : Fin cfg0.N, (cfg0.win 2).flush t = true ∧ i ∈ ((cfg0.win 2).blk t).view.set := by
  have hi0 : (i 0).val < 50000 := (i 0).isLt
  have hi1 : (i 1).val < 32 := (i 1).isLt
  have hlt : (i 0).val / 5000 < cfg0.N := by show (i 0).val / 5000 < 10; omega
  obtain ⟨-, -, -, -, e20, e21⟩ := block_index ⟨(i 0).val / 5000, hlt⟩
  have e20' : win0_2.index ⟨(i 0).val / 5000, hlt⟩ (0 : Fin 2) = (i 0).val / 5000 := e20
  refine ⟨⟨(i 0).val / 5000, hlt⟩, flush0_2 _, ?_⟩
  rw [mem_block]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 32 ≤ (i 1).val
      ∧ (i 1).val < win0_2.index ⟨(i 0).val / 5000, hlt⟩ (1 : Fin 2) * 32 + 32
    omega

/-- THE RESULT ARRAY after the region: the product of the two arrays the region was entered with. -/
theorem final (c : Dev nD) : (dat0 V c).arrAt 2 cfg0.N = rowsTimes (hArr V c) (wArr V c) :=
  (dat0 V c).arrAt_eq_of_cover 2 _ (fun t _ => flushed_eq V c t) covered

end Cert.KernelIdeal.Project

end
-- ==== Proof.Epilogue.lean ====
/-
  The node epilogue, the second kernel region.

  Each grid point t of ten loads rows 5000·t … 5000·t+4999 of the edge sums (a 5000×32 block), the same rows of the
  per-node norm (a 5000×1 column block) and the whole 1×32 bias row, and stores max(acc·norm + bias, 0) over its
  5000×32 output block. So whatever the region finds in its three input arrays, it leaves in its result array, at
  entry (r, j), the value max(acc(r, j)·norm(r, 0) + bias(0, j), 0): the ten blocks are the restrictions of that one
  function to consecutive row ranges, and together they cover all 50000 rows.
-/
import proofs.«181072_j10969346474530_1_alg».proof.Proof.Gen.KernelIdeal.Frame
import Idealize.ShloMosaic.Lib.Pipeline.Value
import Idealize.ShloMosaic.Lib.ValueIdx

set_option maxRecDepth 16384

noncomputable section

namespace Cert.KernelIdeal.Epilogue

open Cert.KernelIdeal Cert.KernelIdeal.Gen Idealize.ShloMosaic Idealize.ShloMosaic.TcCoe Idealize.SL.Sem
open Idealize.ShloMosaic.ValueIdx
open Idealize.ShloMosaic.Pipeline (Dat)

/-- A whole-block access starts at the origin. -/
theorem origin2 : (![0, 0] : Fin 2 → Nat) = fun _ => 0 := funext fun a => by fin_cases a <;> rfl

/-- The node update as one function of three arrays: entry (r, j) is max(acc(r, j)·norm(r, 0) + bias(0, j), 0),
    the zero being the float literal both programs print. -/
def nodeApply (acc : S50000x32.Idx → EReal) (nrm : S50000x1.Idx → EReal) (b : S1x32.Idx → EReal) : S50000x32.Idx → EReal :=
  fun i => max (acc i * nrm (ix2 (i 0) 0) + b (ix2 0 (i 1))) (Ideal.ofBits .f32 0x00000000#32)

/-! ## The body's arithmetic at an entry of the block -/

/-- A 5000×1 column broadcast along the 32 columns reads the column at the entry's row. -/
theorem column_bcast (x : Vec Ideal S5000x1 .f32) (p : Fin 5000) (q : Fin 32) :
    broadcastTo S5000x32 x broadcasts_S5000x1_S5000x32 (ix2 p q) = x (ix2 p 0) :=
  broadcastTo_apply x broadcasts_S5000x1_S5000x32 (ix2 p q) (ix2 p 0) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- A 1×32 row broadcast down the 5000 rows reads the row at the entry's column. -/
theorem row_bcast (x : Vec Ideal S1x32 .f32) (p : Fin 5000) (q : Fin 32) :
    broadcastTo S5000x32 x broadcasts_S1x32_S5000x32 (ix2 p q) = x (ix2 0 q) :=
  broadcastTo_apply x broadcasts_S1x32_S5000x32 (ix2 p q) (ix2 0 q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- The stored value at entry (p, q) of the block: max(acc(p, q)·norm(p, 0) + bias(0, q), 0). -/
theorem stored_apply (x0 : Vec Ideal S5000x32 .f32) (x1 : Vec Ideal S5000x1 .f32) (x2 : Vec Ideal S1x32 .f32) (p : Fin 5000) (q : Fin 32) :
    k1_pay1 (F := Ideal) x0 x1 x2 (ix2 p q)
      = max (x0 (ix2 p q) * x1 (ix2 p 0) + x2 (ix2 0 q)) (Ideal.ofBits .f32 0x00000000#32) := by
  unfold k1_pay1
  rw [maximumf_apply, addf_apply, mulf_apply, shapeCast_self, shapeCast_self, column_bcast, row_bcast]
  rfl

/-- The same at an index of the block not yet split into coordinates. -/
theorem stored_at (x0 : Vec Ideal S5000x32 .f32) (x1 : Vec Ideal S5000x1 .f32) (x2 : Vec Ideal S1x32 .f32) (j : S5000x32.Idx) :
    k1_pay1 (F := Ideal) x0 x1 x2 j
      = max (x0 j * x1 (ix2 (j 0) 0) + x2 (ix2 0 (j 1))) (Ideal.ofBits .f32 0x00000000#32) := by
  obtain ⟨p, q, rfl⟩ : ∃ (p : Fin 5000) (q : Fin 32), j = ix2 p q := ⟨j 0, j 1, eq_ix2 j⟩
  exact stored_apply x0 x1 x2 p q

/-! ## From the ten blocks to the array -/

variable (V : (c : Dev nD) → (b : Ref sig .tc) → Buf (Elt Ideal) ((c : Thread nD τ).loc b))

/-- The three arrays the region reads, as it finds them, each at its literal type. -/
abbrev accArr (c : Dev nD) : S50000x32.Idx → EReal := V c main_v19
abbrev nrmArr (c : Dev nD) : S50000x1.Idx → EReal := V c main_arg3
abbrev biasArr (c : Dev nD) : S1x32.Idx → EReal := V c main_v20

/-- The printed index maps over the ten grid points: the edge sums, the norm column and the result move together, one
    block of rows per point and a single block of columns; the bias row is always its one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the node update of the three arrays as the region finds them: row p of
    the block is row 5000·t + p of every array that moves with the grid, and the bias row is read whole. -/
theorem flushed_eq (c : Dev nD) (t : Fin cfg1.N) :
    (dat1 V c).flushed 3 t
      = ((cfg1.win 3).blk t).view.read (Elt Ideal) (nodeApply (accArr V c) (nrmArr V c) (biasArr V c)) := by
  show (cfg1.win 3).cut (grid1.coords t) ((dat1 V c).after 3 t) = _
  rw [after1_3]
  unfold out1_3
  rw [View.canon_unit_zero origin2]
  simp only [View.ld_unit_zero (S := S5000x32) origin2, View.ld_unit_zero (S := S5000x1) origin2,
    View.ld_unit_zero (S := S1x32) origin2]
  obtain ⟨e00, e01, e10, e11, e20, e21, e30, e31⟩ := block_index t
  funext j
  refine (stored_at (iblk1 V c 0 t) (iblk1 V c 1 t) (iblk1 V c 2 t) j).trans ?_
  show max (accArr V c (((cfg1.win 0).blk t).view.emb j)
        * nrmArr V c (((cfg1.win 1).blk t).view.emb (ix2 (j 0) 0))
        + biasArr V c (((cfg1.win 2).blk t).view.emb (ix2 0 (j 1)))) (Ideal.ofBits .f32 0x00000000#32)
      = max (accArr V c (((cfg1.win 3).blk t).view.emb j)
        * nrmArr V c (ix2 ((((cfg1.win 3).blk t).view.emb j) 0) 0)
        + biasArr V c (ix2 0 ((((cfg1.win 3).blk t).view.emb j) 1))) (Ideal.ofBits .f32 0x00000000#32)
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 32 + 1 * (j 1).val = win1_3.index t (1 : Fin 2) * 32 + 1 * (j 1).val; omega
  have h1 : ((cfg1.win 1).blk t).view.emb (ix2 (j 0) 0) = ix2 ((((cfg1.win 3).blk t).view.emb j) 0) 0 := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (ix2 0 (j 1)) = ix2 0 ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 32 + 1 * (j 1).val = win1_3.index t (1 : Fin 2) * 32 + 1 * (j 1).val; omega
  rw [h0, h1, h2]
  rfl

/-- An index of the result array lies in point t's block iff each coordinate lies in the block's range on its axis. -/
theorem mem_block (t : Fin cfg1.N) (i : S50000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v21).slice (win1_3.rect t)).set ↔ _
  rw [View.set_slice_whole, Rect.mem_set_unit]
  exact Iff.rfl

/-- Every entry (r, j) of the result array is written: by the point r / 5000. -/
theorem covered (i : S50000x32.Idx) :
    ∃ t : Fin cfg1.N, (cfg1.win 3).flush t = true ∧ i ∈ ((cfg1.win 3).blk t).view.set := by
  have hi0 : (i 0).val < 50000 := (i 0).isLt
  have hi1 : (i 1).val < 32 := (i 1).isLt
  have hlt : (i 0).val / 5000 < cfg1.N := by show (i 0).val / 5000 < 10; omega
  obtain ⟨-, -, -, -, -, -, e30, e31⟩ := block_index ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_block]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 32 ≤ (i 1).val
      ∧ (i 1).val < win1_3.index ⟨(i 0).val / 5000, hlt⟩ (1 : Fin 2) * 32 + 32
    omega

/-- THE RESULT ARRAY after the region: the node update of the three arrays the region was entered with. -/
theorem final (c : Dev nD) :
    (dat1 V c).arrAt 3 cfg1.N = nodeApply (accArr V c) (nrmArr V c) (biasArr V c) :=
  (dat1 V c).arrAt_eq_of_cover 3 _ (fun t _ => flushed_eq V c t) covered

end Cert.KernelIdeal.Epilogue

end
-- ==== Proof.Between.lean ====
/-
  The host stretch between the two kernel regions, and what the second region is entered with.

  Between the projection and the epilogue the program normalises the source indices (a negative index counts from the
  end: i < 0 becomes i + 50000), gathers row src(e) of the projected features and entry src(e) of the norm for every
  edge e, multiplies the two, and adds each edge's 32 values into row dst(e) of an array of zeros. That whole stretch is
  carried as ONE function, `edgeSum`, of the projected features, the norm and the two index arrays: the reference applies
  the very same operations, so nothing about a gather or a scatter is ever needed beyond "the same function of equal
  arguments". The stretch also casts the 32 biases to a 1×32 row and leaves every argument array alone.
-/
import proofs.«181072_j10969346474530_1_alg».proof.Proof.Gen.KernelIdeal.Frame
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo

variable {F : FTy → Type} [FloatOps F]

/-- The source indices made non-negative (an index below zero counts from the end of the 50000 rows), as a column. -/
def wrapped (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- THE EDGE STRETCH as one function: each edge's message hp[src]·norm[src], summed into its destination row. -/
def edgeSum (hp : (⟨S50000x32, .f32⟩ : BufTy).Contents (Elt F)) (nrm : (⟨S50000x1, .f32⟩ : BufTy).Contents (Elt F))
    (src dst : (⟨S1600000, .i32⟩ : BufTy).Contents (Elt F)) : (⟨S50000x32, .f32⟩ : BufTy).Contents (Elt F) :=
  Host.scatterAdd scatter_S50000x32_S1600000x1_S1600000x32_1_0_0_1
    (broadcastInDim S50000x32 ![] bcast_S_S50000x32 (constant S_ .f32 0x00000000#32))
    (broadcastInDim S1600000x1 ![0] bcast_S1600000_S1600000x1_0 dst)
    (mulf (Host.gather gather_S50000x32_S1600000x1_S1600000x32_1_0_n_n_0_1_132 hp (wrapped src))
      (broadcastInDim S1600000x32 ![0, 1] bcast_S1600000x1_S1600000x32_0_1
        (Host.gather gather_S50000x1_S1600000x1_S1600000x1_1_0_n_n_0_1_11 nrm (wrapped src))))

variable (m : (ℓ : Loc nD τ sig) → Buf (Elt F) ℓ) (ρ : Dev nD → PrngReg)

set_option maxHeartbeats 2000000 in
/-- The edge sums the second region is entered with: the edge stretch of what the first region left and of the
    arguments as they stand after it. -/
theorem entry_acc (c : Dev nD) :
    W2 m ρ c (Proc.devRef .tc main_v19)
      = edgeSum (W1 m ρ c (Proc.devRef .tc main_v0)) (W1 m ρ c (Proc.devRef .tc main_arg3))
          (W1 m ρ c (Proc.devRef .tc main_arg4)) (W1 m ρ c (Proc.devRef .tc main_arg5)) := by
  after_results_simp <;> rfl

set_option maxHeartbeats 2000000 in
/-- The bias row the second region is entered with: the 32 biases cast to a 1×32 row. -/
theorem entry_bias (c : Dev nD) :
    W2 m ρ c (Proc.devRef .tc main_v20)
      = fun i => shapeCast S1x32 (W1 m ρ c (Proc.devRef .tc main_arg2)) shapeCasts_S32_S1x32 i := by
  after_results_simp <;> rfl

/-- No operation of the stretch writes an argument array: the second region is entered with the norm as the first
    region left it. -/
theorem entry_norm (c : Dev nD) :
    W2 m ρ c (Proc.devRef .tc main_arg3) = W1 m ρ c (Proc.devRef .tc main_arg3) :=
  StableHlo.after_of_forall_not_mem (b := Proc.devRef .tc main_arg3) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The first region writes its result array only: an argument it does not stage is as launched. -/
theorem left_arg2 (c : Dev nD) : W1 m ρ c (Proc.devRef .tc main_arg2) = m ((c : Thread nD τ).loc main_arg2) :=
  W1_of_ne m ρ c main_arg2 (by decide)
theorem left_arg3 (c : Dev nD) : W1 m ρ c (Proc.devRef .tc main_arg3) = m ((c : Thread nD τ).loc main_arg3) :=
  W1_of_ne m ρ c main_arg3 (by decide)
theorem left_arg4 (c : Dev nD) : W1 m ρ c (Proc.devRef .tc main_arg4) = m ((c : Thread nD τ).loc main_arg4) :=
  W1_of_ne m ρ c main_arg4 (by decide)
theorem left_arg5 (c : Dev nD) : W1 m ρ c (Proc.devRef .tc main_arg5) = m ((c : Thread nD τ).loc main_arg5) :=
  W1_of_ne m ρ c main_arg5 (by decide)

/-- What the first region leaves in its result array is what its ten write-backs fold to. -/
theorem left_hp (c : Dev nD) : W1 m ρ c (Proc.devRef .tc main_v0) = (dat0 (V0 m ρ) c).arrAt 2 cfg0.N :=
  W1_arr m ρ c 2

end Cert.KernelIdeal.Between

end
-- ==== Proof.KernelValue.lean ====
/-
  The kernel program's result array as ONE function of the six argument arrays.

  The first region leaves the product h·w in its result array; the host stretch turns that, the norm and the two index
  arrays into the edge sums, casts the biases to a row and leaves the arguments alone; the second region then leaves
  max(edges·norm + bias, 0). Composed: the result array after the run is the node update of the edge stretch of the
  product — a function of the launch contents of the arguments and of nothing else.
-/
import proofs.«181072_j10969346474530_1_alg».proof.Proof.Project
import proofs.«181072_j10969346474530_1_alg».proof.Proof.Epilogue
import proofs.«181072_j10969346474530_1_alg».proof.Proof.Between

set_option maxRecDepth 16384

noncomputable section

namespace Cert.KernelIdeal.KernelValue

open Cert.KernelIdeal Cert.KernelIdeal.Gen Idealize.ShloMosaic Idealize.ShloMosaic.TcCoe Idealize.SL.Sem

/-- The program's result from its arguments: product, edge stretch, node update with the biases as a 1×32 row. -/
def result (h : (⟨S50000x256, .f32⟩ : BufTy).Contents (Elt Ideal)) (w : (⟨S256x32, .f32⟩ : BufTy).Contents (Elt Ideal))
    (b : (⟨S32, .f32⟩ : BufTy).Contents (Elt Ideal)) (nrm : (⟨S50000x1, .f32⟩ : BufTy).Contents (Elt Ideal))
    (src dst : (⟨S1600000, .i32⟩ : BufTy).Contents (Elt Ideal)) : (⟨S50000x32, .f32⟩ : BufTy).Contents (Elt Ideal) :=
  Epilogue.nodeApply (Between.edgeSum (F := Ideal) (Project.rowsTimes h w) nrm src dst) nrm
    (fun i => shapeCast S1x32 b shapeCasts_S32_S1x32 i)

variable (m : (ℓ : Loc nD τ sig) → Buf (Elt Ideal) ℓ) (ρ : Dev nD → PrngReg)

/-- The edge sums the second region reads are the edge stretch of the product of h and the weight as launched. -/
theorem acc_eq (c : Dev nD) :
    Epilogue.accArr (V2 m ρ) c
      = Between.edgeSum (F := Ideal) (Project.rowsTimes (m ((c : Thread nD τ).loc main_arg0)) (m ((c : Thread nD τ).loc main_arg1)))
          (m ((c : Thread nD τ).loc main_arg3)) (m ((c : Thread nD τ).loc main_arg4)) (m ((c : Thread nD τ).loc main_arg5)) := by
  show W2 m ρ c (Proc.devRef .tc main_v19) = _
  rw [Between.entry_acc, Between.left_hp, Between.left_arg3, Between.left_arg4, Between.left_arg5, Project.final (V0 m ρ) c]

/-- The norm the second region reads is the norm as launched. -/
theorem nrm_eq (c : Dev nD) : Epilogue.nrmArr (V2 m ρ) c = m ((c : Thread nD τ).loc main_arg3) := by
  show W2 m ρ c (Proc.devRef .tc main_arg3) = _
  rw [Between.entry_norm, Between.left_arg3]

/-- The bias row the second region reads is the biases as launched, cast to a row. -/
theorem bias_eq (c : Dev nD) :
    Epilogue.biasArr (V2 m ρ) c = fun i => shapeCast S1x32 (m ((c : Thread nD τ).loc main_arg2)) shapeCasts_S32_S1x32 i := by
  show W2 m ρ c (Proc.devRef .tc main_v20) = _
  rw [Between.entry_bias, Between.left_arg2]

/-- THE RESULT ARRAY after the run, from the launch contents of the arguments. -/
theorem value (c : Dev nD) :
    (dat1 (V2 m ρ) c).arrAt 3 cfg1.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Epilogue.final (V2 m ρ) c, acc_eq, nrm_eq, bias_eq]
  rfl

end Cert.KernelIdeal.KernelValue

end
-- ==== Proof.RefValue.lean ====
/-
  The reference's side: what its run leaves in the result array, read at an entry.

  The reference multiplies h by the weight in one host product, applies the edge stretch (source indices normalised, the
  two gathers, the product, the sum into destination rows) to it, and finishes on the host: the edge sums times the
  norm broadcast along the 32 columns, plus the bias broadcast down the 50000 rows, then the maximum with zero. Read at
  entry (r, j) that is max(edges(r, j)·norm(r, 0) + bias(j), 0), with the host product's entry the sum
  ∑ₖ h(r, k)·w(k, j). The edge stretch is kept as ONE function of its four operands and never opened.
-/
import proofs.«181072_j10969346474530_1_alg».proof.Proof.Gen.ReferenceIdeal.Run
import proofs.«181072_j10969346474530_1_alg».proof.Proof.Gen.ReferenceIdeal.Read
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable {F : FTy → Type} [FloatOps F]

/-- The source indices made non-negative (an index below zero counts from the end of the 50000 rows), as a column. -/
def wrapped (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- The reference's edge stretch as one function: each edge's message hp[src]·norm[src], summed into its destination
    row. -/
def edgeSum (hp : (⟨S50000x32, .f32⟩ : BufTy).Contents (Elt F)) (nrm : (⟨S50000x1, .f32⟩ : BufTy).Contents (Elt F))
    (src dst : (⟨S1600000, .i32⟩ : BufTy).Contents (Elt F)) : (⟨S50000x32, .f32⟩ : BufTy).Contents (Elt F) :=
  Host.scatterAdd scatter_S50000x32_S1600000x1_S1600000x32_1_0_0_1
    (broadcastInDim S50000x32 ![] bcast_S_S50000x32 (constant S_ .f32 0x00000000#32))
    (broadcastInDim S1600000x1 ![0] bcast_S1600000_S1600000x1_0 dst)
    (mulf (Host.gather gather_S50000x32_S1600000x1_S1600000x32_1_0_n_n_0_1_132 hp (wrapped src))
      (broadcastInDim S1600000x32 ![0, 1] bcast_S1600000x1_S1600000x32_0_1
        (Host.gather gather_S50000x1_S1600000x1_S1600000x1_1_0_n_n_0_1_11 nrm (wrapped src))))

/-- The reference's stage of edge sums is the edge stretch applied to its host product. -/
theorem edges_eq (x0 : (⟨S50000x256, .f32⟩ : BufTy).Contents (Elt F)) (x1 : (⟨S256x32, .f32⟩ : BufTy).Contents (Elt F))
    (x3 : (⟨S50000x1, .f32⟩ : BufTy).Contents (Elt F)) (x4 x5 : (⟨S1600000, .i32⟩ : BufTy).Contents (Elt F)) :
    val_main_v19 (F := F) x0 x1 x3 x4 x5 = edgeSum (val_main_v0 (F := F) x0 x1) x3 x4 x5 := rfl

/-- The host product at entry (r, j): ∑ₖ h(r, k)·w(k, j). -/
theorem product_apply (x0 : (⟨S50000x256, .f32⟩ : BufTy).Contents (Elt Ideal)) (x1 : (⟨S256x32, .f32⟩ : BufTy).Contents (Elt Ideal))
    (i : S50000x32.Idx) :
    val_main_v0 (F := Ideal) x0 x1 i = ∑ k : Fin 256, x0 (ix2 (i 0) k) * x1 (ix2 k (i 1)) := by
  rw [val_main_v0_apply]
  refine Finset.sum_congr rfl fun k _ => ?_
  have el : lidx_main_v0 i k = ix2 (i 0) k :=
    funext fun a => Fin.ext (by match a with | ⟨0, _⟩ => rfl | ⟨1, _⟩ => rfl)
  have er : ridx_main_v0 i k = ix2 k (i 1) :=
    funext fun a => Fin.ext (by match a with | ⟨0, _⟩ => rfl | ⟨1, _⟩ => rfl)
  rw [el, er]
  rfl

/-- The reference's result at entry (r, j): max(edges(r, j)·norm(r, 0) + bias(j), 0). -/
theorem result_apply (x0 : (⟨S50000x256, .f32⟩ : BufTy).Contents (Elt Ideal)) (x1 : (⟨S256x32, .f32⟩ : BufTy).Contents (Elt Ideal))
    (x2 : (⟨S32, .f32⟩ : BufTy).Contents (Elt Ideal)) (x3 : (⟨S50000x1, .f32⟩ : BufTy).Contents (Elt Ideal))
    (x4 x5 : (⟨S1600000, .i32⟩ : BufTy).Contents (Elt Ideal)) (i : S50000x32.Idx) :
    val_main_v25 (F := Ideal) x0 x1 x2 x3 x4 x5 i
      = max (edgeSum (F := Ideal) (val_main_v0 (F := Ideal) x0 x1) x3 x4 x5 i * x3 (ix2 (i 0) 0) + x2 (ix1 (i 1)))
          (Ideal.ofBits .f32 0x00000000#32) := by
  have e20 : idx_main_v20 i = ix2 (i 0) 0 :=
    funext fun a => Fin.ext (by match a with | ⟨0, _⟩ => rfl | ⟨1, _⟩ => rfl)
  have e22 : idx_main_v22 (idx_main_v23 i) = ix1 (i 1) :=
    funext fun a => Fin.ext (by match a with | ⟨0, _⟩ => rfl)
  rw [val_main_v25_apply, val_main_v24_apply, val_main_v21_apply, val_main_v23_apply, val_main_v22_apply,
    val_main_v20_apply, val_main_call0_v0_apply, val_main_call0_cst_apply, edges_eq, e20, e22]
  rfl

end Cert.ReferenceIdeal.RefValue

end
-- ==== Proof.Same.lean ====
/-
  The two programs compute one function.

  At entry (r, j) both results are max(edges(r, j)·norm(r, 0) + bias(j), 0): the kernel reads the bias through its
  1×32 row, whose entry (0, j) is bias(j), the reference through two broadcasts. Both edge stretches are the same
  operations, and they are applied to equal products: the kernel's blocks of h against the whole weight, accumulated
  from zero, and the reference's one host product are both ∑ₖ h(r, k)·w(k, j). No law of the extended reals beyond that
  is used, and the inputs' finiteness plays no part.
-/
import proofs.«181072_j10969346474530_1_alg».proof.Proof.KernelValue
import proofs.«181072_j10969346474530_1_alg».proof.Proof.RefValue

set_option maxRecDepth 16384

noncomputable section

open scoped BigOperators

namespace Cert.Same

open Idealize.ShloMosaic Idealize.ShloMosaic.TcCoe Idealize.SL.Sem Idealize.ShloMosaic.ValueIdx

/-- The two programs print the same edge stretch. -/
theorem edges_same :
    @Cert.ReferenceIdeal.RefValue.edgeSum Ideal _ = @Cert.KernelIdeal.Between.edgeSum Ideal _ := rfl

/-- The reference's host product is the kernel's product, entry by entry. -/
theorem product_same (x0 : (⟨Cert.ReferenceIdeal.S50000x256, .f32⟩ : BufTy).Contents (Elt Ideal))
    (x1 : (⟨Cert.ReferenceIdeal.S256x32, .f32⟩ : BufTy).Contents (Elt Ideal)) :
    Cert.ReferenceIdeal.Read.val_main_v0 (F := Ideal) x0 x1 = Cert.KernelIdeal.Project.rowsTimes x0 x1 :=
  funext fun i => Cert.ReferenceIdeal.RefValue.product_apply x0 x1 i

/-- Entry (0, j) of the 32 biases cast to a 1×32 row is bias(j): both sit at row-major position j. -/
theorem bias_row (x2 : (⟨Cert.KernelIdeal.S32, .f32⟩ : BufTy).Contents (Elt Ideal)) (q : Fin 32) :
    shapeCast Cert.KernelIdeal.S1x32 x2 Cert.KernelIdeal.Facts₀.shapeCasts_S32_S1x32 (ix2 0 q) = x2 (ix1 q) :=
  shapeCast_apply x2 Cert.KernelIdeal.Facts₀.shapeCasts_S32_S1x32 (ix2 0 q) (ix1 q) (by
    rw [Shape.rowMajor_val_one, Shape.rowMajor_val_two]
    show q.val = 0 * 32 + q.val
    omega)

/-- THE BRIDGE: the reference's result stage is the kernel program's result function, of the same six arrays. -/
theorem result_same (x0 : (⟨Cert.ReferenceIdeal.S50000x256, .f32⟩ : BufTy).Contents (Elt Ideal))
    (x1 : (⟨Cert.ReferenceIdeal.S256x32, .f32⟩ : BufTy).Contents (Elt Ideal))
    (x2 : (⟨Cert.ReferenceIdeal.S32, .f32⟩ : BufTy).Contents (Elt Ideal))
    (x3 : (⟨Cert.ReferenceIdeal.S50000x1, .f32⟩ : BufTy).Contents (Elt Ideal))
    (x4 x5 : (⟨Cert.ReferenceIdeal.S1600000, .i32⟩ : BufTy).Contents (Elt Ideal)) :
    Cert.ReferenceIdeal.Read.val_main_v25 (F := Ideal) x0 x1 x2 x3 x4 x5
      = Cert.KernelIdeal.KernelValue.result x0 x1 x2 x3 x4 x5 := by
  funext i
  rw [Cert.ReferenceIdeal.RefValue.result_apply, edges_same, product_same]
  unfold Cert.KernelIdeal.KernelValue.result Cert.KernelIdeal.Epilogue.nodeApply
  beta_reduce
  rw [bias_row x2 (i 1)]

end Cert.Same

end
-- ==== Proof.lean ====
/-
  A two-layer graph-convolution step: project the node features, send each edge's message src → dst, update the nodes.

  The kernel program runs the projection h·w as a tiled matrix product (ten blocks of 5000 rows, operands narrowed to
  bf16, accumulated in f32 from zero), leaves the gather / scale / segment-sum over the 1.6 million edges to the host,
  and finishes with a tiled node update max(acc·norm + bias, 0). The reference does all of it on the host. Over the
  extended reals the narrowing is the identity and a product accumulated from zero is the plain sum ∑ₖ h(r, k)·w(k, j),
  so the two projections agree entry by entry; the edge stretch is the same list of operations on both sides, applied
  to equal arrays; and the node update is the same expression, entry by entry. So the two results are one function of
  the six arguments (Proof/Same.lean), which is all the value claim needs: no law that could fail at an infinity is
  used, and the precondition is never opened.

  The three frames: the two kernel programs' are the generated frame certificates; the reference's is its generated run
  with the result dropped. The idealization rewrote nothing, so there is nothing to preserve.
-/
import proofs.«181072_j10969346474530_1_alg».proof.Defs
import proofs.«181072_j10969346474530_1_alg».proof.Proof.Gen.Kernel
import proofs.«181072_j10969346474530_1_alg».proof.Proof.Gen.Kernel.Skeleton
import proofs.«181072_j10969346474530_1_alg».proof.Proof.Gen.Kernel.Launch
import proofs.«181072_j10969346474530_1_alg».proof.Proof.Gen.Kernel.Points
import proofs.«181072_j10969346474530_1_alg».proof.Proof.Gen.Kernel.Frame
import proofs.«181072_j10969346474530_1_alg».proof.Proof.Gen.KernelIdeal
import proofs.«181072_j10969346474530_1_alg».proof.Proof.Gen.KernelIdeal.Skeleton
import proofs.«181072_j10969346474530_1_alg».proof.Proof.Gen.KernelIdeal.Launch
import proofs.«181072_j10969346474530_1_alg».proof.Proof.Gen.KernelIdeal.Points
import proofs.«181072_j10969346474530_1_alg».proof.Proof.Gen.KernelIdeal.Frame
import proofs.«181072_j10969346474530_1_alg».proof.Proof.Gen.ReferenceIdeal
import proofs.«181072_j10969346474530_1_alg».proof.Proof.Gen.Pre_finite_inputs
import proofs.«181072_j10969346474530_1_alg».proof.Proof.KernelRun
import proofs.«181072_j10969346474530_1_alg».proof.Proof.KernelValue
import proofs.«181072_j10969346474530_1_alg».proof.Proof.RefValue
import proofs.«181072_j10969346474530_1_alg».proof.Proof.Same
import Idealize.ShloMosaic.Adequacy
import Idealize.ShloMosaic.Init

noncomputable section

namespace Cert.Proof

open Idealize.ShloMosaic Idealize.SL.Sem Cert.Kernel

/-- The word-level kernel program runs and leaves its arguments alone. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at the same function of
    them: the kernel program's by its two regions and the stretch between them, the reference's by its run, and the
    two functions are one. -/
theorem algebraic : Cert.algebraic_KernelIdeal_ReferenceIdeal := by
  intro m ρ m' ρ' _ hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.value m ρ c), (h c).2⟩)
      (Cert.KernelIdeal.Launched.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [Cert.ReferenceIdeal.Read.val_main_v25_eq, a0, a1, a2, a3, a4, a5]
    exact Cert.Same.result_same _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
